-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S8x1024x256 : Shape := ⟨3, ![8, 1024, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x1024x256 : S_.BroadcastsInDim S8x1024x256 (![] : Fin 0 → Fin S8x1024x256.rank)
  reducesTo_S8x1024x256_S_d0_1_2 : S8x1024x256.ReducesTo [0, 1, 2] S_

variable [Facts]

def fn {F : FTy → Type} [FloatOps F] (main_arg0 : FVec F S8x4096x256 .f32) (main_arg1 : FVec F S8x1024x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x1024x256 .f32 := Host.absf main_arg1
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_c_1 : IVec S_ 1 := constantI S_ 1 1#1
  let main_v7 : IVec S_ 1 := (fun x v => Host.reduce IntOp.andi x v reducesTo_S8x1024x256_S_d0_1_2 h_S_) main_v6 main_c_1
  let main_v8 : IVec S_ 1 := andi main_v3 main_v7
  main_v8
-- ==== Kernel.lean ====
abbrev S8x4096x256 : Shape := ⟨3, ![8, 4096, 256]⟩
abbrev S8x1024x256 : Shape := ⟨3, ![8, 1024, 256]⟩
abbrev S8x4096 : Shape := ⟨2, ![8, 4096]⟩
abbrev S8x512x256 : Shape := ⟨3, ![8, 512, 256]⟩
abbrev S8x256x256 : Shape := ⟨3, ![8, 256, 256]⟩
abbrev S8x512 : Shape := ⟨2, ![8, 512]⟩
abbrev S8x512x1 : Shape := ⟨3, ![8, 512, 1]⟩
abbrev S8x256 : Shape := ⟨2, ![8, 256]⟩
abbrev S8x1x256 : Shape := ⟨3, ![8, 1, 256]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x256, .f32⟩
  | .hbm, ⟨1, _⟩ => ⟨S8x1024x256, .f32⟩
  | .hbm, ⟨2, _⟩ => ⟨S8x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8x512x256, .f32⟩
  | .local _ .vmem, ⟨1, _⟩ => ⟨S8x512x256, .f32⟩
  | .local _ .vmem, ⟨2, _⟩ => ⟨S8x256x256, .f32⟩
  | .local _ .vmem, ⟨3, _⟩ => ⟨S8x256x256, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_15 : BitVec 32 := 0#32
  let v31 : BitVec 1 := Scalar.cmpi .ne v30 c0_i32_15
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x256_S8x512x256_0_0_0 : ∀ a, (![0, 0, 0] : Fin 3 → Nat) a + S8x512x256.size a ≤ S8x512x256.size a
  h_S8x512x256 : 0 < S8x512x256.numel
  inb_S8x256x256_S8x256x256_0_0_0 : ∀ a, (![0, 0, 0] : Fin 3 → Nat) a + S8x256x256.size a ≤ S8x256x256.size a
  h_S8x256x256 : 0 < S8x256x256.numel
  reduces_S8x512x256_S8x512 : S8x512x256.Reduces [2] S8x512
  shapeCasts_S8x512_S8x512x1 : S8x512.ShapeCasts S8x512x1
  reduces_S8x256x256_S8x256 : S8x256x256.Reduces [2] S8x256
  shapeCasts_S8x256_S8x1x256 : S8x256.ShapeCasts S8x1x256
  bitsLt_bf16_f32 : FTy.bits .bf16 < FTy.bits .f32
  broadcasts_S8x512x1_S8x512x256 : S8x512x1.Broadcasts S8x512x256
  broadcasts_S8x1x256_S8x512x256 : S8x1x256.Broadcasts S8x512x256
  reducesTo_S8x4096_S_d0_1 : S8x4096.ReducesTo [0, 1] S_
  h_S_ : 0 < S_.numel
  dot_S8x512x256_S8x256x256_S8x512x256_2_2_1_1_0_0_wf : DotDims.WF S8x512x256 S8x256x256 S8x512x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S8x4096x256.size a
  hwx0_0 : ∀ i : grid0.Coords, EltTy.bits .f32 = 32 ∨ (Rect.block (s := S8x4096x256) S8x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S8x1024x256.size a
  hwx0_1 : ∀ i : grid0.Coords, EltTy.bits .f32 = 32 ∨ (Rect.block (s := S8x1024x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)

variable [Facts₀]

def dot_S8x512x256_S8x256x256_S8x512x256_2_2_1_1_0_0 : DotDims S8x512x256 S8x256x256 S8x512x256 where
  lhsContracting := [2]
  rhsContracting := [2]
  lhsNonContracting := [1]
  rhsNonContracting := [1]
  lhsBatch := [0]
  rhsBatch := [0]
  wf := dot_S8x512x256_S8x256x256_S8x512x256_2_2_1_1_0_0_wf

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x256 : Shape := ⟨3, ![8, 4096, 256]⟩
abbrev S8x1024x256 : Shape := ⟨3, ![8, 1024, 256]⟩
abbrev S_ : Shape := ⟨0, ![]⟩
abbrev S8x4096 : Shape := ⟨2, ![8, 4096]⟩
abbrev S8x1024 : Shape := ⟨2, ![8, 1024]⟩
abbrev S8x4096x1024 : Shape := ⟨3, ![8, 4096, 1024]⟩
abbrev S8x4096x1 : Shape := ⟨3, ![8, 4096, 1]⟩
abbrev S8x1x1024 : Shape := ⟨3, ![8, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x1024x256, .f32⟩
  | .hbm, ⟨2, _⟩ => ⟨S8x4096x256, .f32⟩
  | .hbm, ⟨3, _⟩ => ⟨S_, .f32⟩
  | .hbm, ⟨4, _⟩ => ⟨S8x4096, .f32⟩
  | .hbm, ⟨5, _⟩ => ⟨S8x1024x256, .f32⟩
  | .hbm, ⟨6, _⟩ => ⟨S_, .f32⟩
  | .hbm, ⟨7, _⟩ => ⟨S8x1024, .f32⟩
  | .hbm, ⟨8, _⟩ => ⟨S8x4096x1024, .f32⟩
  | .hbm, ⟨9, _⟩ => ⟨S8x4096x1, .f32⟩
  | .hbm, ⟨10, _⟩ => ⟨S8x1x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S8x4096x256_S8x4096_d2 : S8x4096x256.ReducesTo [2] S8x4096
  h_S_ : 0 < S_.numel
  reducesTo_S8x1024x256_S8x1024_d2 : S8x1024x256.ReducesTo [2] S8x1024
  bcast_S8x4096_S8x4096x1_0_1 : S8x4096.BroadcastsInDim S8x4096x1 (![0, 1] : Fin 2 → Fin S8x4096x1.rank)
  bcast_S8x1024_S8x1x1024_0_2 : S8x1024.BroadcastsInDim S8x1x1024 (![0, 2] : Fin 2 → Fin S8x1x1024.rank)
  bcast_S8x4096x1_S8x4096x1024_0_1_2 : S8x4096x1.BroadcastsInDim S8x4096x1024 (![0, 1, 2] : Fin 3 → Fin S8x4096x1024.rank)
  bcast_S8x1x1024_S8x4096x1024_0_1_2 : S8x1x1024.BroadcastsInDim S8x4096x1024 (![0, 1, 2] : Fin 3 → Fin S8x4096x1024.rank)
  bcast_S_S8x4096x1024 : S_.BroadcastsInDim S8x4096x1024 (![] : Fin 0 → Fin S8x4096x1024.rank)
  reducesTo_S8x4096x1024_S8x4096_d2 : S8x4096x1024.ReducesTo [2] S8x4096
  reducesTo_S8x4096_S_d0_1 : S8x4096.ReducesTo [0, 1] S_
  dot_S8x4096x256_S8x1024x256_S8x4096x1024_2_2_1_1_0_0_wf : DotDims.WF S8x4096x256 S8x1024x256 S8x4096x1024 [2] [2] [1] [1] [0] [0]

variable [Facts₀]

def dot_S8x4096x256_S8x1024x256_S8x4096x1024_2_2_1_1_0_0 : DotDims S8x4096x256 S8x1024x256 S8x4096x1024 where
  lhsContracting := [2]
  rhsContracting := [2]
  lhsNonContracting := [1]
  rhsNonContracting := [1]
  lhsBatch := [0]
  rhsBatch := [0]
  wf := dot_S8x4096x256_S8x1024x256_S8x4096x1024_2_2_1_1_0_0_wf

class Facts : Prop extends Facts₀ where

variable [Facts]
-- ==== Proof.KernelPieces.lean ====
/-
  What one grid point leaves behind, as the body's stored value of what it found.

  The body keeps a running minimum in a scratch buffer across the four center tiles of a point tile. On the first tile it
  first resets the scratch to +∞ and then updates it; on the others it only updates it; on the last it also copies the
  updated scratch into the output block. The update reads the scratch it has just reset (first tile) or found (other
  tiles), so in every case the scratch ends at
      stored (points block, centers block, what the update read),
  what it read being the +∞ block on the first tile and the previous point's scratch otherwise; and on the last tile the
  output block ends at that same value, being a read of the scratch after the update.
-/
import proofs.«133824_j84232898609604_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First center tile: the scratch ends at the update of the +∞ block. -/
theorem scratch_A (c : Dev nD) (i : grid0.Coords) (arg2 : Memref sig .tc .vmem S8x512x256 .f32) (harg2 : arg2.IsWhole) (arg3 : Memref sig .tc .vmem S8x256x256 .f32) (harg3 : arg3.IsWhole) (arg4 : Memref sig .tc .vmem S8x512 .f32) (harg4 : arg4.IsWhole) (arg5 : Memref sig .tc .vmem S8x512 .f32) (harg5 : arg5.IsWhole) (hc0 : cond0_0 i) (hc1 : ¬cond0_1 i)
    (x0 : Vec F S8x512x256 .f32) (x1 : Vec F S8x256x256 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x512) hz2]
  simp only [View.readAt_eq_ld, harg2.read_unread, harg3.read_unread, View.ld_unit_zero (S := S8x512x256) hz3,
    View.ld_unit_zero (S := S8x256x256) hz3, View.readCov_unit_zero (S := S8x512) _ hz2]

/-- A middle center tile: the scratch ends at the update of what the point before left in it. -/
theorem scratch_B (c : Dev nD) (i : grid0.Coords) (arg2 : Memref sig .tc .vmem S8x512x256 .f32) (harg2 : arg2.IsWhole) (arg3 : Memref sig .tc .vmem S8x256x256 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : ¬cond0_1 i)
    (x0 : Vec F S8x512x256 .f32) (x1 : Vec F S8x256x256 .f32) (xs0 : Vec F S8x512 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S8x512x256) hz3,
    View.ld_unit_zero (S := S8x256x256) hz3, View.ld_unit_zero (S := S8x512) hz2]

/-- The last center tile: the scratch likewise, -/
theorem scratch_C (c : Dev nD) (i : grid0.Coords) (arg2 : Memref sig .tc .vmem S8x512x256 .f32) (harg2 : arg2.IsWhole) (arg3 : Memref sig .tc .vmem S8x256x256 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x256 .f32) (x1 : Vec F S8x256x256 .f32) (xs0 : Vec F S8x512 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S8x512x256) hz3,
    View.ld_unit_zero (S := S8x256x256) hz3, View.ld_unit_zero (S := S8x512) hz2]

/-- and the output block at the same value: the scratch read back after the update. -/
theorem out_C (c : Dev nD) (i : grid0.Coords) (arg2 : Memref sig .tc .vmem S8x512x256 .f32) (harg2 : arg2.IsWhole) (arg3 : Memref sig .tc .vmem S8x256x256 .f32) (harg3 : arg3.IsWhole) (arg4 : Memref sig .tc .vmem S8x512 .f32) (harg4 : arg4.IsWhole) (arg5 : Memref sig .tc .vmem S8x512 .f32) (harg5 : arg5.IsWhole) (hc0 : ¬cond0_0 i) (hc1 : cond0_1 i)
    (x0 : Vec F S8x512x256 .f32) (x1 : Vec F S8x256x256 .f32) (xs0 : Vec F S8x512 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S8x512x256) hz3,
    View.ld_unit_zero (S := S8x256x256) hz3, View.ld_unit_zero (S := S8x512) hz2, View.readCov_unit_zero (S := S8x512) _ hz2]

end Cert.KernelIdeal.Pieces

end
-- ==== Proof.Spec.lean ====
/-
  What both programs compute, as one function of the two argument arrays.

  points P is [8, 4096, 256], centers C is [8, 1024, 256]. For a point (b, n) and a center (b, k) of the same batch the
  distance, in the expanded form both programs use, is
      dist = √ max ( (Σ_d P² + Σ_d C²) − 2 · Σ_d P·C ,  0 )
  with the sums over the 256 features, the 2 and the 0 the float words both programs carry. The nearest-center distance
  of (b, n) is the minimum of dist over the 1024 centers, folded from the word +∞ that both programs start from; the
  result is the mean of these over the 8 · 4096 points, which both programs take with the same two host operations.
-/
import Idealize.ShloMosaic.PureOps.Ideal
import Idealize.ShloMosaic.Lib.ValueIdx
import Mathlib.Data.Finset.Fold

noncomputable section

namespace Cert.Spec

open Idealize.ShloMosaic Idealize.ShloMosaic.ValueIdx

/-- The distance between two feature vectors in its expanded form: √ max ((|p|² + |c|²) − 2·⟨p, c⟩, 0). -/
def pairDist {D : Nat} (p c : Fin D → EReal) : EReal :=
  Ideal.sqrt (max (((∑ d : Fin D, p d * p d) + (∑ d : Fin D, c d * c d))
      - Ideal.ofBits .f32 0x40000000#32 * (∑ d : Fin D, p d * c d)) (Ideal.ofBits .f32 0x00000000#32))

/-- The distances from point (b, n) to the 1024 centers of batch b. -/
def dists (P : FVec Ideal ⟨3, ![8, 4096, 256]⟩ .f32) (C : FVec Ideal ⟨3, ![8, 1024, 256]⟩ .f32) (b : Fin 8) (n : Fin 4096) :
    Fin 1024 → EReal :=
  fun k => pairDist (fun d => P (ix3 b n d)) (fun d => C (ix3 b k d))

/-- The least of them, folded from the +∞ word. -/
def nearestAt (P : FVec Ideal ⟨3, ![8, 4096, 256]⟩ .f32) (C : FVec Ideal ⟨3, ![8, 1024, 256]⟩ .f32) (b : Fin 8) (n : Fin 4096) :
    EReal :=
  (Finset.univ : Finset (Fin 1024)).fold min (Ideal.ofBits .f32 0x7F800000#32) (dists P C b n)

/-- The [8, 4096] array of nearest-center distances. -/
def nearest (P : FVec Ideal ⟨3, ![8, 4096, 256]⟩ .f32) (C : FVec Ideal ⟨3, ![8, 1024, 256]⟩ .f32) :
    FVec Ideal ⟨2, ![8, 4096]⟩ .f32 :=
  fun j => nearestAt P C (j 0) (j 1)

theorem nearest_apply (P : FVec Ideal ⟨3, ![8, 4096, 256]⟩ .f32) (C : FVec Ideal ⟨3, ![8, 1024, 256]⟩ .f32) (b : Fin 8)
    (n : Fin 4096) : nearest P C (ix2 b n) = nearestAt P C b n := rfl

end Cert.Spec

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibSqueezeExcite.lean ====
/-
  The squeeze-and-excitation gate over the extended reals, for any extents.

  For one sample with channels c and positions h, the gate of channel c is
      logistic ( Σ_j  max ( Σ_c' ((Σ_h X c' h) · κ) · W1 (c', j),  z ) · W2 (j, c) ),
  κ the mean's factor and z the rectifier's floor. The block scaled by its gates is written here for the two layouts of
  a batch, channels before positions and positions before channels; exchanging the two trailing axes before and after
  the second gives the first, because the gate's inner sum runs over the same positions either way.
  Below that, the vector operations such a block is built from, read at an index: a sum along the last or the middle
  axis of a rank-3 array, a rank-2 array given a trailing or a middle unit axis, and that unit axis laid out along the
  full axis; and the gate of a whole [B, C] array of per-channel sums as the two block products compute it.
-/
import Idealize.ShloMosaic.PureOps.Ideal.Laws
import Idealize.ShloMosaic.Lib.ValueIdx
import Idealize.ShloMosaic.Lib.ValueLayout
import Idealize.ShloMosaic.Lib.Pipeline.Value
import proofs.«133824_j84232898609604_1_alg».proof.Proof.LibDotSum

noncomputable section

open scoped BigOperators

namespace Cert.Lib

open Idealize.ShloMosaic Idealize.ShloMosaic.ValueIdx

variable {N B C H R : Nat}

/-! ## The gate and the scaled block, in both layouts -/

/-- The gate of channel `c` of one sample `X` (channel, position). -/
def seGate (κ z : EReal) (X : Fin C → Fin H → EReal) (W1 : FVec Ideal ⟨2, ![C, R]⟩ .f32) (W2 : FVec Ideal ⟨2, ![R, C]⟩ .f32)
    (c : Fin C) : EReal :=
  Ideal.logistic (∑ j : Fin R, max (∑ c' : Fin C, ((∑ h : Fin H, X c' h) * κ) * W1 (ix2 c' j)) z * W2 (ix2 j c))

/-- Every entry (n, c, h) of a batch scaled by its sample's gate of channel c: channels before positions. -/
def seNCH (κ z : EReal) (A : FVec Ideal ⟨3, ![N, C, H]⟩ .f32) (W1 : FVec Ideal ⟨2, ![C, R]⟩ .f32) (W2 : FVec Ideal ⟨2, ![R, C]⟩ .f32) :
    FVec Ideal ⟨3, ![N, C, H]⟩ .f32 :=
  fun i => A i * seGate κ z (fun c' h' => A (ix3 (i 0) c' h')) W1 W2 (i 1)

/-- The same with positions before channels: entry (n, h, c). -/
def seNHC (κ z : EReal) (A : FVec Ideal ⟨3, ![N, H, C]⟩ .f32) (W1 : FVec Ideal ⟨2, ![C, R]⟩ .f32) (W2 : FVec Ideal ⟨2, ![R, C]⟩ .f32) :
    FVec Ideal ⟨3, ![N, H, C]⟩ .f32 :=
  fun i => A i * seGate κ z (fun c' h' => A (ix3 (i 0) h' c')) W1 W2 (i 2)

theorem seNCH_apply (κ z : EReal) (A : FVec Ideal ⟨3, ![N, C, H]⟩ .f32) (W1 : FVec Ideal ⟨2, ![C, R]⟩ .f32)
    (W2 : FVec Ideal ⟨2, ![R, C]⟩ .f32) (n : Fin N) (c : Fin C) (h : Fin H) :
    seNCH κ z A W1 W2 (ix3 n c h) = A (ix3 n c h) * seGate κ z (fun c' h' => A (ix3 n c' h')) W1 W2 c := rfl

theorem seNHC_apply (κ z : EReal) (A : FVec Ideal ⟨3, ![N, H, C]⟩ .f32) (W1 : FVec Ideal ⟨2, ![C, R]⟩ .f32)
    (W2 : FVec Ideal ⟨2, ![R, C]⟩ .f32) (n : Fin N) (h : Fin H) (c : Fin C) :
    seNHC κ z A W1 W2 (ix3 n h c) = A (ix3 n h c) * seGate κ z (fun c' h' => A (ix3 n h' c')) W1 W2 c := rfl

/-- Exchange the two trailing axes, scale positions-before-channels, exchange back: the channels-before-positions
    scaling. Entry (n, c, h) of the left side is the transposed array's entry (n, h, c), which is A (n, c, h), times
    the gate of the sample whose (c', h') entry is again A (n, c', h'). -/
theorem transpose_seNHC_transpose (κ z : EReal) (A : FVec Ideal ⟨3, ![N, C, H]⟩ .f32) (W1 : FVec Ideal ⟨2, ![C, R]⟩ .f32)
    (W2 : FVec Ideal ⟨2, ![R, C]⟩ .f32)
    (h1 : (⟨3, ![N, C, H]⟩ : Shape).Transposes [0, 2, 1] ⟨3, ![N, H, C]⟩)
    (h2 : (⟨3, ![N, H, C]⟩ : Shape).Transposes [0, 2, 1] ⟨3, ![N, C, H]⟩) :
    transpose ⟨3, ![N, C, H]⟩ [0, 2, 1] (seNHC κ z (transpose ⟨3, ![N, H, C]⟩ [0, 2, 1] A h1) W1 W2) h2 = seNCH κ z A W1 W2 := by
  funext i
  obtain ⟨n, c, h, rfl⟩ : ∃ (n : Fin N) (c : Fin C) (h : Fin H), i = ix3 n c h := ⟨i 0, i 1, i 2, eq_ix3 i⟩
  have e : ∀ (c' : Fin C) (h' : Fin H), transpose ⟨3, ![N, H, C]⟩ [0, 2, 1] A h1 (ix3 n h' c') = A (ix3 n c' h') :=
    fun c' h' => transpose_ix3_021_apply A h1 n h' c'
  rw [transpose_ix3_021_apply, seNHC_apply, seNCH_apply, e c h]
  exact congrArg (fun X => A (ix3 n c h) * seGate κ z X W1 W2 c) (funext fun c' => funext fun h' => e c' h')

/-! ## The vector operations, read at an index -/

section Layout
variable {α : Type} {a b c : Nat}

/-- An [a, b] array given a trailing unit axis reads, at (p, q, u), the operand at (p, q). -/
theorem shapeCast_ab_ab1_apply (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b] array given a middle unit axis reads, at (p, u, q), the operand at (p, q). -/
theorem shapeCast_ab_a1b_apply (x : (⟨2, ![a, b]⟩ : Shape).Idx → α) (h : (⟨2, ![a, b]⟩ : Shape).ShapeCasts ⟨3, ![a, 1, b]⟩)
    (p : Fin a) (u : Fin 1) (q : Fin b) : shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An [a, b, 1] array laid out along a last axis of extent c reads, at (p, q, r), the operand at (p, q, 0). -/
theorem broadcastTo_ab1_abc_apply (v : (⟨3, ![a, b, 1]⟩ : Shape).Idx → α) (h : (⟨3, ![a, b, 1]⟩ : Shape).Broadcasts ⟨3, ![a, b, c]⟩)
    (p : Fin a) (q : Fin b) (r : Fin c) : broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, 1, c] array laid out along a middle axis of extent b reads, at (p, q, r), the operand at (p, 0, r). -/
theorem broadcastTo_a1c_abc_apply (v : (⟨3, ![a, 1, c]⟩ : Shape).Idx → α) (h : (⟨3, ![a, 1, c]⟩ : Shape).Broadcasts ⟨3, ![a, b, c]⟩)
    (p : Fin a) (q : Fin b) (r : Fin c) : broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Layout

section Sums
variable {a b c : Nat} {φ : FTy}

/-- The sum of an [a, b, c] array along its last axis, at (p, q): the sum over r of the entries (p, q, r). -/
theorem sum_axis2_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  refine (Ideal.multiReduction_add_single src acc h hφ hacc (ix2 p q)).trans ?_
  refine Finset.sum_congr rfl fun r _ => congrArg src ?_
  funext ax
  match ax with
  | ⟨0, _⟩ => rfl
  | ⟨1, _⟩ => rfl
  | ⟨2, _⟩ => rfl

/-- The sum of an [a, b, c] array along its middle axis, at (p, r): the sum over q of the entries (p, q, r). -/
theorem sum_axis1_apply (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ q : Fin b, src (ix3 p q r) := by
  refine (Ideal.multiReduction_add_single src acc h hφ hacc (ix2 p r)).trans ?_
  refine Finset.sum_congr rfl fun q _ => congrArg src ?_
  funext ax
  match ax with
  | ⟨0, _⟩ => rfl
  | ⟨1, _⟩ => rfl
  | ⟨2, _⟩ => rfl

end Sums

/-! ## The excitation of a [B, C] array of per-channel sums, as two block products compute it -/

/-- Scale by κ, multiply by W1, floor at z, multiply by W2, logistic: at (r, c) it is the gate's expression over row r. -/
theorem excite_apply (d1 : DotDims ⟨2, ![B, C]⟩ ⟨2, ![C, R]⟩ ⟨2, ![B, R]⟩)
    (h1lc : d1.lhsContracting = [1]) (h1rc : d1.rhsContracting = [0])
    (h1ln : d1.lhsNonContracting = [0]) (h1rn : d1.rhsNonContracting = [1])
    (h1lb : d1.lhsBatch = []) (h1rb : d1.rhsBatch = [])
    (d2 : DotDims ⟨2, ![B, R]⟩ ⟨2, ![R, C]⟩ ⟨2, ![B, C]⟩)
    (h2lc : d2.lhsContracting = [1]) (h2rc : d2.rhsContracting = [0])
    (h2ln : d2.lhsNonContracting = [0]) (h2rn : d2.rhsNonContracting = [1])
    (h2lb : d2.lhsBatch = []) (h2rb : d2.rhsBatch = [])
    (S : FVec Ideal ⟨2, ![B, C]⟩ .f32) (κ z : Ideal .f32)
    (W1 : FVec Ideal ⟨2, ![C, R]⟩ .f32) (W2 : FVec Ideal ⟨2, ![R, C]⟩ .f32) (r : Fin B) (c : Fin C) :
    logistic (matmul d2 none (maximumf (matmul d1 none (mulf S (broadcast ⟨2, ![B, C]⟩ κ)) W1 (constant ⟨2, ![B, R]⟩ .f32 0x00000000#32))
        (broadcast ⟨2, ![B, R]⟩ z)) W2 (constant ⟨2, ![B, C]⟩ .f32 0x00000000#32)) (ix2 r c)
      = Ideal.logistic (∑ j : Fin R, max (∑ c' : Fin C, (S (ix2 r c') * κ) * W1 (ix2 c' j)) z * W2 (ix2 j c)) := by
  show Ideal.logistic (matmul d2 none _ W2 (constant ⟨2, ![B, C]⟩ .f32 0x00000000#32) (ix2 r c)) = _
  rw [matmul_rc_apply d2 h2lc h2rc h2ln h2rn h2lb h2rb]
  refine congrArg Ideal.logistic (Finset.sum_congr rfl fun j _ => ?_)
  refine congrArg (· * W2 (ix2 j c)) ?_
  show max (matmul d1 none _ W1 (constant ⟨2, ![B, R]⟩ .f32 0x00000000#32) (ix2 r j)) z = _
  rw [matmul_rc_apply d1 h1lc h1rc h1ln h1rn h1lb h1rb]
  rfl

end Cert.Lib

end
-- ==== Proof.LibBatchDot.lean ====
/-
  A batched product A · Bᵀ, read at an output index.

  The operands are [Bt, M, K] and [Bt, N, K]: axis 0 of both is the batch, axis 2 of both is contracted, and the result is
  [Bt, M, N]. No transposition is computed: entry (b, r, c) of the result is
      Σ_k  A (b, r, k) · B (b, c, k).
  The library gives the product's value as a sum over the dimension numbers' contraction index set of the operands at two
  computed operand indices; with one contracted axis that index is the coordinate k, and the operand indices are
  (b, r, k) and (b, c, k). Stated for any extents and any dimension-numbers record with these axis lists, for the block
  product into the zero accumulator and for the host's product.
-/
import Idealize.ShloMosaic.PureOps.Ideal.Laws
import Idealize.ShloMosaic.Lib.ValueIdx

noncomputable section

namespace Cert.Lib

open Idealize.ShloMosaic Idealize.ShloMosaic.ValueIdx

variable {Bt M N K : Nat}

/-- The dimension numbers of a batched [Bt, M, K] · [Bt, N, K]ᵀ product. -/
def bnt (wf : DotDims.WF ⟨3, ![Bt, M, K]⟩ ⟨3, ![Bt, N, K]⟩ ⟨3, ![Bt, M, N]⟩ [2] [2] [1] [1] [0] [0]) :
    DotDims ⟨3, ![Bt, M, K]⟩ ⟨3, ![Bt, N, K]⟩ ⟨3, ![Bt, M, N]⟩ := ⟨[2], [2], [1], [1], [0], [0], wf⟩

variable (wf : DotDims.WF ⟨3, ![Bt, M, K]⟩ ⟨3, ![Bt, N, K]⟩ ⟨3, ![Bt, M, N]⟩ [2] [2] [1] [1] [0] [0])

theorem bnt_lhs_0 (i : (⟨3, ![Bt, M, N]⟩ : Shape).Idx) (q : (bnt wf).contr.Idx) : ((bnt wf).lhsIdx i q 0).val = (i 0).val := by
  unfold DotDims.lhsIdx
  rw [dif_pos (show (0 : Fin (⟨3, ![Bt, M, K]⟩ : Shape).rank) ∈ (bnt wf).lhsBatch by simp [bnt])]
  rfl
theorem bnt_lhs_1 (i : (⟨3, ![Bt, M, N]⟩ : Shape).Idx) (q : (bnt wf).contr.Idx) : ((bnt wf).lhsIdx i q 1).val = (i 1).val := by
  unfold DotDims.lhsIdx
  rw [dif_neg (show ¬(1 : Fin (⟨3, ![Bt, M, K]⟩ : Shape).rank) ∈ (bnt wf).lhsBatch by simp [bnt]),
    dif_pos (show (1 : Fin (⟨3, ![Bt, M, K]⟩ : Shape).rank) ∈ (bnt wf).lhsNonContracting by simp [bnt])]
  rfl
theorem bnt_lhs_2 (i : (⟨3, ![Bt, M, N]⟩ : Shape).Idx) (q : (bnt wf).contr.Idx) :
    ((bnt wf).lhsIdx i q 2).val = (q ⟨0, Nat.one_pos⟩).val :=
  (bnt wf).lhsIdx_val_of_single rfl i q
theorem bnt_rhs_0 (i : (⟨3, ![Bt, M, N]⟩ : Shape).Idx) (q : (bnt wf).contr.Idx) : ((bnt wf).rhsIdx i q 0).val = (i 0).val := by
  unfold DotDims.rhsIdx
  rw [dif_pos (show (0 : Fin (⟨3, ![Bt, N, K]⟩ : Shape).rank) ∈ (bnt wf).rhsBatch by simp [bnt])]
  rfl
theorem bnt_rhs_1 (i : (⟨3, ![Bt, M, N]⟩ : Shape).Idx) (q : (bnt wf).contr.Idx) : ((bnt wf).rhsIdx i q 1).val = (i 2).val := by
  unfold DotDims.rhsIdx
  rw [dif_neg (show ¬(1 : Fin (⟨3, ![Bt, N, K]⟩ : Shape).rank) ∈ (bnt wf).rhsBatch by simp [bnt]),
    dif_pos (show (1 : Fin (⟨3, ![Bt, N, K]⟩ : Shape).rank) ∈ (bnt wf).rhsNonContracting by simp [bnt])]
  rfl
theorem bnt_rhs_2 (i : (⟨3, ![Bt, M, N]⟩ : Shape).Idx) (q : (bnt wf).contr.Idx) :
    ((bnt wf).rhsIdx i q 2).val = (q ⟨0, Nat.one_pos⟩).val :=
  (bnt wf).rhsIdx_val_of_single rfl i q

/-- The contraction sum at (b, r, c) runs over the pairs (b, r, k), (b, c, k). -/
theorem sum_bnt {β : Type} [AddCommMonoid β] (f : (⟨3, ![Bt, M, K]⟩ : Shape).Idx → (⟨3, ![Bt, N, K]⟩ : Shape).Idx → β)
    (b : Fin Bt) (r : Fin M) (c : Fin N) :
    ∑ k : (bnt wf).contr.Idx, f ((bnt wf).lhsIdx (ix3 b r c) k) ((bnt wf).rhsIdx (ix3 b r c) k)
      = ∑ k : Fin K, f (ix3 b r k) (ix3 b c k) := by
  rw [← Equiv.sum_comp (contrEquiv1 (bnt wf) K rfl rfl).symm]
  refine Finset.sum_congr rfl fun k _ => ?_
  have hk := contrEquiv1_symm_val (bnt wf) K rfl rfl k
  have el : (bnt wf).lhsIdx (ix3 b r c) ((contrEquiv1 (bnt wf) K rfl rfl).symm k) = ix3 b r k := funext fun a => Fin.ext (by
    match a with
    | ⟨0, _⟩ => exact bnt_lhs_0 wf _ _
    | ⟨1, _⟩ => exact bnt_lhs_1 wf _ _
    | ⟨2, _⟩ => exact (bnt_lhs_2 wf _ _).trans hk)
  have er : (bnt wf).rhsIdx (ix3 b r c) ((contrEquiv1 (bnt wf) K rfl rfl).symm k) = ix3 b c k := funext fun a => Fin.ext (by
    match a with
    | ⟨0, _⟩ => exact bnt_rhs_0 wf _ _
    | ⟨1, _⟩ => exact bnt_rhs_1 wf _ _
    | ⟨2, _⟩ => exact (bnt_rhs_2 wf _ _).trans hk)
  rw [el, er]

/-- The same for any record with those axis lists. -/
theorem sum_contr_bnt {β : Type} [AddCommMonoid β] (d : DotDims ⟨3, ![Bt, M, K]⟩ ⟨3, ![Bt, N, K]⟩ ⟨3, ![Bt, M, N]⟩)
    (hlc : d.lhsContracting = [2]) (hrc : d.rhsContracting = [2])
    (hln : d.lhsNonContracting = [1]) (hrn : d.rhsNonContracting = [1])
    (hlb : d.lhsBatch = [0]) (hrb : d.rhsBatch = [0])
    (f : (⟨3, ![Bt, M, K]⟩ : Shape).Idx → (⟨3, ![Bt, N, K]⟩ : Shape).Idx → β) (b : Fin Bt) (r : Fin M) (c : Fin N) :
    ∑ k : d.contr.Idx, f (d.lhsIdx (ix3 b r c) k) (d.rhsIdx (ix3 b r c) k) = ∑ k : Fin K, f (ix3 b r k) (ix3 b c k) := by
  obtain ⟨lc, rc', ln, rn, lb, rb, wf'⟩ := d
  simp only at hlc hrc hln hrn hlb hrb
  subst hlc hrc hln hrn hlb hrb
  exact sum_bnt wf' f b r c

/-- The batched block product into the zero accumulator, at (b, r, c): the sum over k of A (b, r, k) · B (b, c, k). -/
theorem matmul_bnt_apply {φ₁ φ₂ : FTy} (d : DotDims ⟨3, ![Bt, M, K]⟩ ⟨3, ![Bt, N, K]⟩ ⟨3, ![Bt, M, N]⟩)
    (hlc : d.lhsContracting = [2]) (hrc : d.rhsContracting = [2])
    (hln : d.lhsNonContracting = [1]) (hrn : d.rhsNonContracting = [1])
    (hlb : d.lhsBatch = [0]) (hrb : d.rhsBatch = [0]) (prec : Option ContractPrecision)
    (A : FVec Ideal ⟨3, ![Bt, M, K]⟩ φ₁) (B : FVec Ideal ⟨3, ![Bt, N, K]⟩ φ₂) (b : Fin Bt) (r : Fin M) (c : Fin N) :
    matmul d prec A B (constant ⟨3, ![Bt, M, N]⟩ .f32 0x00000000#32) (ix3 b r c) = ∑ k : Fin K, A (ix3 b r k) * B (ix3 b c k) := by
  simp only [matmul]
  rw [Ideal.matmul_constant_zero_apply]
  exact sum_contr_bnt d hlc hrc hln hrn hlb hrb (fun a b' => A a * B b') b r c

/-- The host's batched product at (b, r, c): the same sum. -/
theorem dotGeneral_bnt_apply {φ₁ φ₂ : FTy} (d : DotDims ⟨3, ![Bt, M, K]⟩ ⟨3, ![Bt, N, K]⟩ ⟨3, ![Bt, M, N]⟩)
    (hlc : d.lhsContracting = [2]) (hrc : d.rhsContracting = [2])
    (hln : d.lhsNonContracting = [1]) (hrn : d.rhsNonContracting = [1])
    (hlb : d.lhsBatch = [0]) (hrb : d.rhsBatch = [0]) (prec : Option ContractPrecision)
    (A : FVec Ideal ⟨3, ![Bt, M, K]⟩ φ₁) (B : FVec Ideal ⟨3, ![Bt, N, K]⟩ φ₂) (b : Fin Bt) (r : Fin M) (c : Fin N) :
    Host.dotGeneral d prec A B (ix3 b r c) = ∑ k : Fin K, A (ix3 b r k) * B (ix3 b c k) := by
  simp only [Host.dotGeneral]
  rw [Ideal.dotGeneral_apply]
  exact sum_contr_bnt d hlc hrc hln hrn hlb hrb (fun a b' => A a * B b') b r c

end Cert.Lib

end
-- ==== Proof.KernelTile.lean ====
/-
  One grid point's arithmetic, read at an entry.

  At a grid point the body holds a block x of 512 points and a block y of 256 centers, each [8, ·, 256], and the running
  minimum acc, [8, 512]. It stores, at (b, r),
      min ( acc (b, r),  min_{kk < 256} dist ( x (b, r, ·),  y (b, kk, ·) ) ),
  the inner minimum folded from the +∞ word and dist the expanded distance of the specification: the row sums of squares
  are sums over the last axis given a unit axis and laid out along the other operand's axis, the cross term is the
  batched product x · yᵀ into the zero accumulator (the narrowing of its operands changes nothing over the extended
  reals), and the reduction over the last axis of the [8, 512, 256] array of distances is a fold of min over kk.
-/
import proofs.«133824_j84232898609604_1_alg».proof.Proof.Gen.KernelIdeal.Skeleton
import proofs.«133824_j84232898609604_1_alg».proof.Proof.Spec
import proofs.«133824_j84232898609604_1_alg».proof.Proof.LibSqueezeExcite
import proofs.«133824_j84232898609604_1_alg».proof.Proof.LibBatchDot
import Idealize.ShloMosaic.PureOps.Ideal.Laws
import Idealize.ShloMosaic.PureOps.Reduce
import Idealize.ShloMosaic.Lib.Pipeline.Value

noncomputable section

namespace Cert.KernelIdeal.Tile

open Idealize.ShloMosaic Idealize.ShloMosaic.ValueIdx Cert.KernelIdeal Cert.KernelIdeal.Gen Cert.Lib

/-- The [8, 512, 256] array of distances between the block's points and the block's centers, as the body builds it. -/
def tileDist {F : FTy → Type} [FloatOps F] (v3 : Vec F S8x512x256 .f32) (v4 : Vec F S8x256x256 .f32) : FVec F S8x512x256 .f32 :=
  sqrt (maximumf (subf
    (addf
      (broadcastTo S8x512x256 (shapeCast S8x512x1 (multiReduction .add [2] S8x512 (mulf v3 v3) 0x00000000#32 reduces_S8x512x256_S8x512 (.inl rfl) rfl) shapeCasts_S8x512_S8x512x1) broadcasts_S8x512x1_S8x512x256)
      (broadcastTo S8x512x256 (shapeCast S8x1x256 (multiReduction .add [2] S8x256 (mulf v4 v4) 0x00000000#32 reduces_S8x256x256_S8x256 (.inl rfl) rfl) shapeCasts_S8x256_S8x1x256) broadcasts_S8x1x256_S8x512x256))
    (mulf (broadcast S8x512x256 (Scalar.ofBits .f32 0x40000000#32))
      (matmul dot_S8x512x256_S8x256x256_S8x512x256_2_2_1_1_0_0 none (truncf .bf16 v3 bitsLt_bf16_f32) (truncf .bf16 v4 bitsLt_bf16_f32) (constant S8x512x256 .f32 0x00000000#32))))
    (broadcast S8x512x256 (Scalar.ofBits .f32 0x00000000#32)))

/-- The stored value is the running minimum against the row minima of that array. -/
theorem pay2_eq {F : FTy → Type} [FloatOps F] (v3 : Vec F S8x512x256 .f32) (v4 : Vec F S8x256x256 .f32) (v24 : Vec F S8x512 .f32) :
    k0_pay2 v3 v4 v24 = shapeCast S8x512 (minimumf v24
      (multiReduction .minimumf [2] S8x512 (tileDist v3 v4) 0x7F800000#32 reduces_S8x512x256_S8x512 (.inl rfl) rfl)) shapeCasts_S8x512_S8x512 := rfl

/-- The row sum of squares of the points' block, laid out along the centers' axis: at (b, r, kk) it is Σ_d x (b, r, d)². -/
theorem psq_apply (v3 : FVec Ideal S8x512x256 .f32) (b : Fin 8) (r : Fin 512) (kk : Fin 256) :
    broadcastTo S8x512x256 (shapeCast S8x512x1 (multiReduction .add [2] S8x512 (mulf v3 v3) 0x00000000#32 reduces_S8x512x256_S8x512 (.inl rfl) rfl) shapeCasts_S8x512_S8x512x1) broadcasts_S8x512x1_S8x512x256 (ix3 b r kk)
      = ∑ d : Fin 256, v3 (ix3 b r d) * v3 (ix3 b r d) :=
  (broadcastTo_ab1_abc_apply _ broadcasts_S8x512x1_S8x512x256 b r kk).trans
    ((shapeCast_ab_ab1_apply _ shapeCasts_S8x512_S8x512x1 b r 0).trans
      (sum_axis2_apply (mulf v3 v3) 0x00000000#32 reduces_S8x512x256_S8x512 (.inl rfl) rfl b r))

/-- The row sum of squares of the centers' block, laid out along the points' axis: at (b, r, kk) it is Σ_d y (b, kk, d)². -/
theorem csq_apply (v4 : FVec Ideal S8x256x256 .f32) (b : Fin 8) (r : Fin 512) (kk : Fin 256) :
    broadcastTo S8x512x256 (shapeCast S8x1x256 (multiReduction .add [2] S8x256 (mulf v4 v4) 0x00000000#32 reduces_S8x256x256_S8x256 (.inl rfl) rfl) shapeCasts_S8x256_S8x1x256) broadcasts_S8x1x256_S8x512x256 (ix3 b r kk)
      = ∑ d : Fin 256, v4 (ix3 b kk d) * v4 (ix3 b kk d) :=
  (broadcastTo_a1c_abc_apply _ broadcasts_S8x1x256_S8x512x256 b r kk).trans
    ((shapeCast_ab_a1b_apply _ shapeCasts_S8x256_S8x1x256 b 0 kk).trans
      (sum_axis2_apply (mulf v4 v4) 0x00000000#32 reduces_S8x256x256_S8x256 (.inl rfl) rfl b kk))

/-- The cross term at (b, r, kk): Σ_d x (b, r, d) · y (b, kk, d). -/
theorem cross_apply (v3 : FVec Ideal S8x512x256 .f32) (v4 : FVec Ideal S8x256x256 .f32) (b : Fin 8) (r : Fin 512) (kk : Fin 256) :
    matmul dot_S8x512x256_S8x256x256_S8x512x256_2_2_1_1_0_0 none (truncf .bf16 v3 bitsLt_bf16_f32) (truncf .bf16 v4 bitsLt_bf16_f32) (constant S8x512x256 .f32 0x00000000#32) (ix3 b r kk)
      = ∑ d : Fin 256, v3 (ix3 b r d) * v4 (ix3 b kk d) :=
  matmul_bnt_apply dot_S8x512x256_S8x256x256_S8x512x256_2_2_1_1_0_0 rfl rfl rfl rfl rfl rfl none
    (truncf .bf16 v3 bitsLt_bf16_f32) (truncf .bf16 v4 bitsLt_bf16_f32) b r kk

/-- So the array of distances at (b, r, kk) is the specification's distance between point row r and center row kk. -/
theorem tileDist_apply (v3 : FVec Ideal S8x512x256 .f32) (v4 : FVec Ideal S8x256x256 .f32) (b : Fin 8) (r : Fin 512) (kk : Fin 256) :
    tileDist (F := Ideal) v3 v4 (ix3 b r kk) = Spec.pairDist (fun d => v3 (ix3 b r d)) (fun d => v4 (ix3 b kk d)) := by
  unfold tileDist Spec.pairDist
  exact congrArg Ideal.sqrt (congrArg₂ max
    (congrArg₂ (· - ·) (congrArg₂ (· + ·) (psq_apply v3 b r kk) (csq_apply v4 b r kk))
      (congrArg (Ideal.ofBits .f32 0x40000000#32 * ·) (cross_apply v3 v4 b r kk))) rfl)

/-- The index of the [8, 512, 256] array that sits over (b, r) at coordinate kk of the reduced axis. -/
theorem lift_last (b : Fin 8) (r : Fin 512) (kk : Fin 256) :
    reduces_S8x512x256_S8x512.lift (ix2 b r) kk = ix3 b r kk := by
  funext ax
  match ax with
  | ⟨0, _⟩ => rfl
  | ⟨1, _⟩ => rfl
  | ⟨2, _⟩ => rfl

/-- The body's stored value at (b, r). -/
theorem pay2_apply (v3 : FVec Ideal S8x512x256 .f32) (v4 : FVec Ideal S8x256x256 .f32) (v24 : FVec Ideal S8x512 .f32) (b : Fin 8) (r : Fin 512) :
    k0_pay2 (F := Ideal) v3 v4 v24 (ix2 b r)
      = min (v24 (ix2 b r)) ((Finset.univ : Finset (Fin 256)).fold min (Ideal.ofBits .f32 0x7F800000#32)
          (fun kk => Spec.pairDist (fun d => v3 (ix3 b r d)) (fun d => v4 (ix3 b kk d)))) := by
  rw [pay2_eq, shapeCast_self]
  refine congrArg (min (v24 (ix2 b r))) ?_
  refine (multiReduction_minimumf_eq_fold (tileDist (F := Ideal) v3 v4) 0x7F800000#32 reduces_S8x512x256_S8x512 (.inl rfl) rfl (ix2 b r)).trans ?_
  refine (reduces_S8x512x256_S8x512.fold_filter_drop_single FloatOps.minimumf _ (tileDist (F := Ideal) v3 v4) (ix2 b r)).trans ?_
  refine Finset.fold_congr fun kk _ => ?_
  exact (congrArg (tileDist (F := Ideal) v3 v4) (lift_last b r kk)).trans (tileDist_apply v3 v4 b r kk)

end Cert.KernelIdeal.Tile

end
-- ==== Proof.LibMinTiles.lean ====
/-
  A minimum taken tile by tile.

  For a family f indexed by Fin N over a linear order, and a starting value I, the element
      fold min I f  =  min (I, f 0, f 1, …, f (N-1))
  is determined by its lower bounds: c is below it exactly when c is below I and below every f k. A running minimum that has
  absorbed the first K members of the family is described the same way, with "every k" cut down to "every k below K".
  Absorbing one more tile of T consecutive members — the minimum of the running value with the fold, again from I, over the
  tile — moves K to K + T; nothing is asked of I (it need not be a top element: it is a lower-bounded member like the others,
  and min is idempotent). After all N members the running value is the whole fold.
-/
import Mathlib.Data.Finset.Fold
import Mathlib.Data.Fintype.Basic
import Mathlib.Order.Basic

namespace Cert.Lib

variable {α : Type} [LinearOrder α]

/-- The lower bounds of a fold of min over all of Fin n, from I: those of I that are below every member. -/
theorem le_foldMin_univ_iff {n : Nat} (I : α) (f : Fin n → α) (c : α) :
    c ≤ (Finset.univ : Finset (Fin n)).fold min I f ↔ c ≤ I ∧ ∀ k, c ≤ f k := by
  rw [Finset.le_fold_min]
  exact and_congr_right fun _ => ⟨fun h k => h k (Finset.mem_univ k), fun h k _ => h k⟩

/-- x is the minimum of I and the members f k with k below K, said through its lower bounds. -/
def MinUpTo {N : Nat} (I : α) (f : Fin N → α) (K : Nat) (x : α) : Prop :=
  ∀ c, c ≤ x ↔ c ≤ I ∧ ∀ k : Fin N, k.val < K → c ≤ f k

/-- Before any member is absorbed the running value is I. -/
theorem minUpTo_zero {N : Nat} (I : α) (f : Fin N → α) : MinUpTo I f 0 I :=
  fun _ => ⟨fun h => ⟨h, fun k hk => absurd hk (Nat.not_lt_zero _)⟩, fun h => h.1⟩

/-- Absorbing the tile g of T members that sit at positions K, K+1, …, K+T-1 of the family. -/
theorem MinUpTo.step {N : Nat} {I : α} {f : Fin N → α} {K : Nat} {x : α} (hx : MinUpTo I f K x) {T : Nat} (g : Fin T → α)
    (hKT : K + T ≤ N) (hg : ∀ (kk : Fin T) (k : Fin N), k.val = K + kk.val → g kk = f k) :
    MinUpTo I f (K + T) (min x ((Finset.univ : Finset (Fin T)).fold min I g)) := by
  intro c
  rw [le_min_iff, hx c, le_foldMin_univ_iff]
  constructor
  · rintro ⟨⟨hI, hlo⟩, -, hhi⟩
    refine ⟨hI, fun k hk => ?_⟩
    by_cases hkK : k.val < K
    · exact hlo k hkK
    · have hlt : k.val - K < T := by omega
      have := hhi ⟨k.val - K, hlt⟩
      rwa [hg ⟨k.val - K, hlt⟩ k (by show k.val = K + (k.val - K); omega)] at this
  · rintro ⟨hI, h⟩
    refine ⟨⟨hI, fun k hk => h k (by omega)⟩, hI, fun kk => ?_⟩
    have hlt : K + kk.val < N := by have := kk.isLt; omega
    rw [hg kk ⟨K + kk.val, hlt⟩ rfl]
    exact h ⟨K + kk.val, hlt⟩ (by show K + kk.val < K + T; have := kk.isLt; omega)

/-- Two bounds that count the same members describe the same running value. -/
theorem MinUpTo.of_eq {N : Nat} {I : α} {f : Fin N → α} {K K' : Nat} {x : α} (hx : MinUpTo I f K x) (h : K = K') :
    MinUpTo I f K' x := h ▸ hx

/-- Once every member is absorbed the running value is the whole fold. -/
theorem MinUpTo.eq_fold {N : Nat} {I : α} {f : Fin N → α} {K : Nat} {x : α} (hx : MinUpTo I f K x) (hK : N ≤ K) :
    x = (Finset.univ : Finset (Fin N)).fold min I f :=
  eq_of_forall_le_iff fun c => by
    rw [hx c, le_foldMin_univ_iff]
    exact and_congr_right fun _ => ⟨fun h k => h k (lt_of_lt_of_le k.isLt hK), fun h k _ => h k⟩

end Cert.Lib
-- ==== Proof.KernelInv.lean ====
/-
  The running minimum across the grid.

  The grid has 8 point tiles by 4 center tiles, visited center tile fastest: point t works on point tile t / 4 (rows
  512·(t/4) … 512·(t/4)+511 of the points) and center tile t % 4 (rows 256·(t%4) … of the centers). So the block entries
  are array entries: x (b, r, d) = P (b, 512·(t/4) + r, d) and y (b, kk, d) = C (b, 256·(t%4) + kk, d).
  After point t the scratch entry (b, r) is the minimum of +∞ and the distances from point (b, 512·(t/4) + r) to the
  centers (b, k) with k < 256·(t%4 + 1): on the first center tile the body starts again from +∞, on the others it carries
  on from the point before, which belongs to the same point tile. On the last center tile k runs over all 1024 centers,
  and the output block, which the body copies from the scratch there, holds the nearest-center distances of its rows.
-/
import proofs.«133824_j84232898609604_1_alg».proof.Proof.KernelPieces
import proofs.«133824_j84232898609604_1_alg».proof.Proof.KernelTile
import proofs.«133824_j84232898609604_1_alg».proof.Proof.LibMinTiles
import Idealize.ShloMosaic.Lib.Pipeline.Value

noncomputable section

namespace Cert.KernelIdeal.Run

open Idealize.ShloMosaic Idealize.ShloMosaic.TcCoe Idealize.SL.Sem Idealize.ShloMosaic.ValueIdx
open Idealize.ShloMosaic.Pipeline (Dat)
open Cert.KernelIdeal Cert.KernelIdeal.Gen Cert.Lib

variable (m : (ℓ : Loc nD τ sig) → Buf (Elt Ideal) ℓ)

/-- The points and the centers as the region finds them, -/
abbrev parr (c : Dev nD) : FVec Ideal S8x4096x256 .f32 := V m c main_arg0
abbrev carr (c : Dev nD) : FVec Ideal S8x1024x256 .f32 := V m c main_arg1
/-- and their blocks at point t. -/
abbrev pblk (c : Dev nD) (t : Fin cfg0.N) : FVec Ideal S8x512x256 .f32 := iblk m c 0 t
abbrev cblk (c : Dev nD) (t : Fin cfg0.N) : FVec Ideal S8x256x256 .f32 := iblk m c 1 t

/-- The +∞ word both minima start from. -/
abbrev top : EReal := Ideal.ofBits .f32 0x7F800000#32

/-- The block indices, decided over the 32 points: point tile t / 4, center tile t % 4. -/
theorem idx_p : ∀ t : Fin cfg0.N, win0_0.index t (0 : Fin 3) = 0 ∧ win0_0.index t (1 : Fin 3) = t.val / 4 ∧ win0_0.index t (2 : Fin 3) = 0 :=
  (by decide +kernel : ∀ t : Fin grid0.N, win0_0.index t (0 : Fin 3) = 0 ∧ win0_0.index t (1 : Fin 3) = t.val / 4 ∧ win0_0.index t (2 : Fin 3) = 0)
theorem idx_c : ∀ t : Fin cfg0.N, win0_1.index t (0 : Fin 3) = 0 ∧ win0_1.index t (1 : Fin 3) = t.val % 4 ∧ win0_1.index t (2 : Fin 3) = 0 :=
  (by decide +kernel : ∀ t : Fin grid0.N, win0_1.index t (0 : Fin 3) = 0 ∧ win0_1.index t (1 : Fin 3) = t.val % 4 ∧ win0_1.index t (2 : Fin 3) = 0)

/-- The points' block at (b, r, d) is the points at (b, row, d), row = 512·(t/4) + r. -/
theorem pblk_apply (c : Dev nD) (t : Fin cfg0.N) (b : Fin 8) (r : Fin 512) (d : Fin 256) (row : Fin 4096)
    (hrow : row.val = 512 * (t.val / 4) + r.val) : pblk m c t (ix3 b r d) = parr m c (ix3 b row d) := by
  obtain ⟨e0, e1, e2⟩ := idx_p t
  unfold pblk iblk
  rw [View.read_apply]
  show V m c main_arg0 _ = V m c main_arg0 _
  refine congrArg (V m c main_arg0) (funext fun a => Fin.ext ?_)
  match a with
  | ⟨0, _⟩ => show win0_0.index t (0 : Fin 3) * 8 + 1 * b.val = b.val; omega
  | ⟨1, _⟩ => show win0_0.index t (1 : Fin 3) * 512 + 1 * r.val = row.val; omega
  | ⟨2, _⟩ => show win0_0.index t (2 : Fin 3) * 256 + 1 * d.val = d.val; omega

/-- The centers' block at (b, kk, d) is the centers at (b, k, d), k = 256·(t%4) + kk. -/
theorem cblk_apply (c : Dev nD) (t : Fin cfg0.N) (b : Fin 8) (kk : Fin 256) (d : Fin 256) (k : Fin 1024)
    (hk : k.val = 256 * (t.val % 4) + kk.val) : cblk m c t (ix3 b kk d) = carr m c (ix3 b k d) := by
  obtain ⟨e0, e1, e2⟩ := idx_c t
  unfold cblk iblk
  rw [View.read_apply]
  show V m c main_arg1 _ = V m c main_arg1 _
  refine congrArg (V m c main_arg1) (funext fun a => Fin.ext ?_)
  match a with
  | ⟨0, _⟩ => show win0_1.index t (0 : Fin 3) * 8 + 1 * b.val = b.val; omega
  | ⟨1, _⟩ => show win0_1.index t (1 : Fin 3) * 256 + 1 * kk.val = k.val; omega
  | ⟨2, _⟩ => show win0_1.index t (2 : Fin 3) * 256 + 1 * d.val = d.val; omega

/-- The block the reset stores holds the +∞ word everywhere. -/
theorem pay1_apply (j : S8x512.Idx) : k0_pay1 (F := Ideal) j = top := by
  unfold k0_pay1
  rw [shapeCast_self]
  rfl

/-! ## The scratch after a point, case by case -/

theorem scr_A (c : Dev nD) (t : Fin cfg0.N) (h0 : t.val % 4 = 0) (h1 : ¬t.val % 4 = 3) :
    (outsAt0 m c t.val t.isLt).2 = k0_pay2 (F := Ideal) (pblk m c t) (cblk m c t) (k0_pay1 (F := Ideal)) := by
  rw [outsAt0_A m c t h0 h1]; dsimp only
  exact Pieces.scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

theorem scr_B (c : Dev nD) (t : Fin cfg0.N) (h0 : ¬t.val % 4 = 0) (h1 : ¬t.val % 4 = 3) :
    (outsAt0 m c t.val t.isLt).2 = k0_pay2 (F := Ideal) (pblk m c t) (cblk m c t)
      (outsAt0 m c (t.val - 1) (Nat.lt_of_le_of_lt (Nat.sub_le _ _) t.isLt)).2 := by
  rw [outsAt0_B m c t h0 h1]; dsimp only
  exact Pieces.scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

theorem scr_C (c : Dev nD) (t : Fin cfg0.N) (h0 : ¬t.val % 4 = 0) (h1 : t.val % 4 = 3) :
    (outsAt0 m c t.val t.isLt).2 = k0_pay2 (F := Ideal) (pblk m c t) (cblk m c t)
      (outsAt0 m c (t.val - 1) (Nat.lt_of_le_of_lt (Nat.sub_le _ _) t.isLt)).2 := by
  rw [outsAt0_C m c t h0 h1]; dsimp only
  exact Pieces.scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- On the last center tile the output block is the scratch. -/
theorem out_eq_scr (c : Dev nD) (t : Fin cfg0.N) (h0 : ¬t.val % 4 = 0) (h1 : t.val % 4 = 3) :
    (outsAt0 m c t.val t.isLt).1 = (outsAt0 m c t.val t.isLt).2 := by
  rw [outsAt0_C m c t h0 h1]; dsimp only
  exact (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans
    (Pieces.scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).symm

/-! ## One update absorbs one center tile -/

theorem step_value (c : Dev nD) (t : Fin cfg0.N) (acc : FVec Ideal S8x512 .f32) (b : Fin 8) (r : Fin 512) (row : Fin 4096)
    (hrow : row.val = 512 * (t.val / 4) + r.val) (K : Nat) (hK : K = 256 * (t.val % 4))
    (hacc : MinUpTo top (Spec.dists (parr m c) (carr m c) b row) K (acc (ix2 b r))) :
    MinUpTo top (Spec.dists (parr m c) (carr m c) b row) (K + 256)
      (k0_pay2 (F := Ideal) (pblk m c t) (cblk m c t) acc (ix2 b r)) := by
  rw [Tile.pay2_apply]
  refine hacc.step _ (by omega) fun kk k hk => ?_
  show Spec.pairDist (fun d => pblk m c t (ix3 b r d)) (fun d => cblk m c t (ix3 b kk d))
    = Spec.pairDist (fun d => parr m c (ix3 b row d)) (fun d => carr m c (ix3 b k d))
  rw [show (fun d => pblk m c t (ix3 b r d)) = fun d => parr m c (ix3 b row d) from funext fun d => pblk_apply m c t b r d row hrow,
    show (fun d => cblk m c t (ix3 b kk d)) = fun d => carr m c (ix3 b k d) from funext fun d => cblk_apply m c t b kk d k (by omega)]

/-! ## The invariant -/

theorem inv_first (c : Dev nD) (t : Fin cfg0.N) (h0 : t.val % 4 = 0) (b : Fin 8) (r : Fin 512) (row : Fin 4096)
    (hrow : row.val = 512 * (t.val / 4) + r.val) :
    MinUpTo top (Spec.dists (parr m c) (carr m c) b row) (256 * (t.val % 4 + 1)) ((outsAt0 m c t.val t.isLt).2 (ix2 b r)) := by
  rw [scr_A m c t h0 (by omega)]
  refine (step_value m c t (k0_pay1 (F := Ideal)) b r row hrow 0 (by omega) ?_).of_eq (by omega)
  rw [pay1_apply]
  exact minUpTo_zero _ _

theorem inv_next (c : Dev nD) (t : Fin cfg0.N) (h0 : ¬t.val % 4 = 0) (b : Fin 8) (r : Fin 512) (row : Fin 4096)
    (hrow : row.val = 512 * (t.val / 4) + r.val)
    (hprev : MinUpTo top (Spec.dists (parr m c) (carr m c) b row) (256 * (t.val % 4))
      ((outsAt0 m c (t.val - 1) (Nat.lt_of_le_of_lt (Nat.sub_le _ _) t.isLt)).2 (ix2 b r))) :
    MinUpTo top (Spec.dists (parr m c) (carr m c) b row) (256 * (t.val % 4 + 1)) ((outsAt0 m c t.val t.isLt).2 (ix2 b r)) := by
  have e : (outsAt0 m c t.val t.isLt).2 = k0_pay2 (F := Ideal) (pblk m c t) (cblk m c t)
      (outsAt0 m c (t.val - 1) (Nat.lt_of_le_of_lt (Nat.sub_le _ _) t.isLt)).2 := by
    by_cases h1 : t.val % 4 = 3
    · exact scr_C m c t h0 h1
    · exact scr_B m c t h0 h1
  rw [e]
  exact (step_value m c t _ b r row hrow (256 * (t.val % 4)) rfl hprev).of_eq (by omega)

/-- After point n the scratch entry (b, r) is the minimum over the centers seen so far of the point tile's row r. -/
theorem scratch_inv (c : Dev nD) : ∀ (n : ℕ) (h : n < cfg0.N) (b : Fin 8) (r : Fin 512) (row : Fin 4096),
    row.val = 512 * (n / 4) + r.val →
    MinUpTo top (Spec.dists (parr m c) (carr m c) b row) (256 * (n % 4 + 1)) ((outsAt0 m c n h).2 (ix2 b r))
  | 0, h, b, r, row, hrow => inv_first m c ⟨0, h⟩ rfl b r row hrow
  | n + 1, h, b, r, row, hrow => by
    by_cases h0 : (n + 1) % 4 = 0
    · exact inv_first m c ⟨n + 1, h⟩ h0 b r row hrow
    · refine inv_next m c ⟨n + 1, h⟩ h0 b r row hrow ?_
      exact (scratch_inv c n (Nat.lt_of_succ_lt h) b r row (by omega)).of_eq (by show 256 * (n % 4 + 1) = 256 * ((n + 1) % 4); omega)

/-- On the last center tile the output block holds the nearest-center distances of the point tile's rows. -/
theorem out_value (c : Dev nD) (t : Fin cfg0.N) (h3 : t.val % 4 = 3) (b : Fin 8) (r : Fin 512) (row : Fin 4096)
    (hrow : row.val = 512 * (t.val / 4) + r.val) :
    (outsAt0 m c t.val t.isLt).1 (ix2 b r) = Spec.nearestAt (parr m c) (carr m c) b row := by
  rw [out_eq_scr m c t (by omega) h3]
  exact (scratch_inv m c t.val t.isLt b r row hrow).eq_fold (by omega)

end Cert.KernelIdeal.Run

end
-- ==== Proof.Mean.lean ====
/-
  The mean over the 8 · 4096 points, as both programs take it: the host's sum of the [8, 4096] array over both axes from
  the zero word, divided by the word 32768. Both programs end with these same two operations, so the mean is carried as
  one function of the array of nearest-center distances and never opened.
-/
import proofs.«133824_j84232898609604_1_alg».proof.Proof.Spec

noncomputable section

namespace Cert.Spec

open Idealize.ShloMosaic

/-- The host's mean of an [8, 4096] array. The two shape facts are what each program states for its own sum. -/
def meanOf (h : (⟨2, ![8, 4096]⟩ : Shape).ReducesTo [0, 1] ⟨0, ![]⟩) (h0 : 0 < (⟨0, ![]⟩ : Shape).numel)
    (x : FVec Ideal ⟨2, ![8, 4096]⟩ .f32) : FVec Ideal ⟨0, ![]⟩ .f32 :=
  Host.divf (F := Ideal) (Host.reduceAdd (F := Ideal) x (constant (F := Ideal) ⟨0, ![]⟩ .f32 0x00000000#32) h h0)
    (constant (F := Ideal) ⟨0, ![]⟩ .f32 0x47000000#32)

end Cert.Spec

end
-- ==== Proof.KernelFinal.lean ====
/-
  From the output blocks to the result.

  The output window is written back only after the last center tile of each point tile, and what is written back is the
  block of rows 512·(t/4) … 512·(t/4)+511 of the array of nearest-center distances. The eight such blocks tile the
  [8, 4096] array — row n of the array lies in the block of the point t = 4·(n / 512) + 3 —, so after the region the array
  IS the specification's array of nearest-center distances. The two host operations after the region then take its mean.
-/
import proofs.«133824_j84232898609604_1_alg».proof.Proof.KernelInv
import proofs.«133824_j84232898609604_1_alg».proof.Proof.Mean
import Idealize.ShloMosaic.Lib.Pipeline.Value
import Idealize.ShloMosaic.Lib.StableHlo.Run

noncomputable section

namespace Cert.KernelIdeal.Run

open Idealize.ShloMosaic Idealize.ShloMosaic.TcCoe Idealize.SL.Sem Idealize.ShloMosaic.ValueIdx
open Idealize.ShloMosaic.Pipeline (Dat)
open Cert.KernelIdeal Cert.KernelIdeal.Gen Cert.Lib

variable (m : (ℓ : Loc nD τ sig) → Buf (Elt Ideal) ℓ) (ρ : Dev nD → PrngReg)

/-- The output's block index, decided over the 32 points: the point tile t / 4. -/
theorem idx_o : ∀ t : Fin cfg0.N, win0_2.index t (0 : Fin 2) = 0 ∧ win0_2.index t (1 : Fin 2) = t.val / 4 :=
  (by decide +kernel : ∀ t : Fin grid0.N, win0_2.index t (0 : Fin 2) = 0 ∧ win0_2.index t (1 : Fin 2) = t.val / 4)

/-- The array row that row r of point t's blocks is. -/
def rowOf (t : Fin cfg0.N) (r : Fin 512) : Fin 4096 :=
  ⟨512 * (t.val / 4) + r.val, by have := t.isLt; have hN : cfg0.N = 32 := N_0; have := r.isLt; omega⟩

/-- The output block after a last center tile, as one function of the block's index. -/
theorem out_vec (c : Dev nD) (t : Fin cfg0.N) (h3 : t.val % 4 = 3) :
    (outsAt0 m c t.val t.isLt).1 = fun j : S8x512.Idx => Spec.nearestAt (parr m c) (carr m c) (j 0) (rowOf t (j 1)) := by
  funext j
  obtain ⟨b, r, rfl⟩ : ∃ (b : Fin 8) (r : Fin 512), j = ix2 b r := ⟨j 0, j 1, eq_ix2 j⟩
  exact out_value m c t h3 b r (rowOf t r) rfl

/-- What a write-back writes is its block of the array of nearest-center distances. -/
theorem flushed_eq (c : Dev nD) (t : Fin cfg0.N) (hf : (cfg0.win 2).flush t = true) :
    (dats m 0 c).flushed 2 t = ((cfg0.win 2).blk t).view.read (Elt Ideal) (Spec.nearest (parr m c) (carr m c)) := by
  have h3 : t.val % 4 = 3 := (flush0_2 t).mp hf
  obtain ⟨e0, e1⟩ := idx_o t
  show (cfg0.win 2).cut (grid0.coords t) ((dats m 0 c).after 2 t) = _
  rw [after0_2, out_vec m c t h3]
  funext j
  show Spec.nearestAt (parr m c) (carr m c) (j 0) (rowOf t (j 1))
    = Spec.nearest (parr m c) (carr m c) (((cfg0.win 2).blk t).view.emb j)
  have ea : ((cfg0.win 2).blk t).view.emb j = ix2 (j 0) (rowOf t (j 1)) := by
    funext a; apply Fin.ext
    match a with
    | ⟨0, _⟩ => show win0_2.index t (0 : Fin 2) * 8 + 1 * (j 0).val = (j 0).val; omega
    | ⟨1, _⟩ => show win0_2.index t (1 : Fin 2) * 512 + 1 * (j 1).val = 512 * (t.val / 4) + (j 1).val; omega
  rw [ea]
  rfl

/-- An index of the array is in point t's block iff each coordinate is in the block's range on its axis. -/
theorem mem_blk (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v0).slice (win0_2.rect t)).set ↔ _
  rw [View.set_slice_whole, Rect.mem_set_unit]
  exact Iff.rfl

/-- Every entry of the array is written back by the last center tile of its row's point tile. -/
theorem cover (i : S8x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hN : cfg0.N = 32 := N_0
  obtain ⟨t, ht⟩ : ∃ t : Fin cfg0.N, t.val = 4 * ((i 1).val / 512) + 3 := ⟨⟨4 * ((i 1).val / 512) + 3, by omega⟩, rfl⟩
  obtain ⟨e0, e1⟩ := idx_o t
  refine ⟨t, (flush0_2 t).mpr (by omega), ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 512 ≤ (i 1).val ∧ (i 1).val < win0_2.index t (1 : Fin 2) * 512 + 512; omega

/-- After the region the output array is the array of nearest-center distances. -/
theorem final (c : Dev nD) : (dats m 0 c).arrAt 2 cfg0.N = Spec.nearest (parr m c) (carr m c) :=
  (dats m 0 c).arrAt_eq_of_cover 2 (Spec.nearest (parr m c) (carr m c)) (flushed_eq m c) cover

/-- The host operations after the region leave the mean of that array in the result. -/
theorem tail_eq (c : Dev nD) :
    Pipeline.afterTail₀ cfgs (dats m) 0 (V0 m) [hostOps1] c main_v2
      = Spec.meanOf reducesTo_S8x4096_S_d0_1 h_S_ (Spec.nearest (parr m c) (carr m c)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = Spec.nearest (parr m c) (carr m c) :=
    (Pipeline.withArrays_arr spec0 launch0.win.arr_inj c (V0 m c) (fun w => (dats m 0 c).arrAt w cfg0.N) 2).trans (final m c)
  exact congrArg (Spec.meanOf reducesTo_S8x4096_S_d0_1 h_S_) e

/-- The kernel's program, run: the result is the mean of the nearest-center distances of the arguments, which end
    unchanged. -/
theorem run : θ_run defs (onTc (τ := τ) (main (F := Ideal))) ⟨m, fun _ => 0, ρ⟩ fun r => ∀ c : Dev nD,
      r.2.mem ((c.tc : Thread nD τ).loc main_v2)
        = Spec.meanOf reducesTo_S8x4096_S_d0_1 h_S_
            (Spec.nearest (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.RefNearest.lean ====
/-
  The reference's array of nearest-center distances is the specification's.

  The reference builds the whole [8, 4096, 1024] array of distances — row sums of squares of both arguments (each the host's
  sum from the zero word, so 0 + Σ), each given a unit axis and laid out along the other argument's axis, the batched
  product points · centersᵀ, then √ max (· − 2 · ·, 0) — and reduces it with min along the centers' axis from the +∞ word.
  Read at (b, n, k) the array holds the specification's distance between point (b, n) and center (b, k); the reduction
  at (b, n) is the fold of min over k.
-/
import proofs.«133824_j84232898609604_1_alg».proof.Proof.Gen.ReferenceIdeal.Read
import proofs.«133824_j84232898609604_1_alg».proof.Proof.Spec
import proofs.«133824_j84232898609604_1_alg».proof.Proof.Mean
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read

/-- Through the two broadcasts and the sum, entry (b, n, k) reads the points' squares at (b, n, d). -/
theorem idxP (b : Fin 8) (n : Fin 4096) (k : Fin 1024) (d : Fin 256) :
    idx_main_v1 (idx_main_v5 (idx_main_v7 (ix3 b n k))) d = ix3 b n d :=
  funext fun a => Fin.ext (by match a with | ⟨0, _⟩ => rfl | ⟨1, _⟩ => rfl | ⟨2, _⟩ => rfl)

/-- and the centers' squares at (b, k, d). -/
theorem idxC (b : Fin 8) (n : Fin 4096) (k : Fin 1024) (d : Fin 256) :
    idx_main_v3 (idx_main_v6 (idx_main_v8 (ix3 b n k))) d = ix3 b k d :=
  funext fun a => Fin.ext (by match a with | ⟨0, _⟩ => rfl | ⟨1, _⟩ => rfl | ⟨2, _⟩ => rfl)

/-- The product's left operand at (b, n, d), -/
theorem idxL (b : Fin 8) (n : Fin 4096) (k : Fin 1024) (d : Fin 256) : lidx_main_v4 (ix3 b n k) d = ix3 b n d :=
  funext fun a => Fin.ext (by match a with | ⟨0, _⟩ => rfl | ⟨1, _⟩ => rfl | ⟨2, _⟩ => rfl)

/-- its right operand at (b, k, d). -/
theorem idxR (b : Fin 8) (n : Fin 4096) (k : Fin 1024) (d : Fin 256) : ridx_main_v4 (ix3 b n k) d = ix3 b k d :=
  funext fun a => Fin.ext (by match a with | ⟨0, _⟩ => rfl | ⟨1, _⟩ => rfl | ⟨2, _⟩ => rfl)

/-- The array of distances at (b, n, k). -/
theorem dist_apply (x0 : (⟨S8x4096x256, .f32⟩ : BufTy).Contents (Elt Ideal)) (x1 : (⟨S8x1024x256, .f32⟩ : BufTy).Contents (Elt Ideal))
    (b : Fin 8) (n : Fin 4096) (k : Fin 1024) :
    val_main_v15 (F := Ideal) x0 x1 (ix3 b n k) = Spec.dists x0 x1 b n k := by
  rw [val_main_v15_apply, val_main_v14_apply, val_main_v13_apply, val_main_cst_2_apply, val_main_v12_apply,
    val_main_v9_apply, val_main_v7_apply, val_main_v5_apply, val_main_v1_apply, val_main_v8_apply, val_main_v6_apply,
    val_main_v3_apply, val_main_v11_apply, val_main_v10_apply, val_main_cst_1_apply, val_main_v4_apply,
    val_main_cst_apply, val_main_cst_0_apply]
  simp only [val_main_v0_apply, val_main_v2_apply, idxP, idxC, idxL, idxR]
  unfold Spec.dists Spec.pairDist
  simp only [Ideal.hostUnary_sqrt_def, Ideal.maximumf_def, Ideal.subf_def, Ideal.addf_def, Ideal.mulf_def, Ideal.ofBits_def,
    Ideal.ofBits_zero_f32, zero_add]

/-- The index of the [8, 4096, 1024] array that sits over (b, n) at coordinate k of the reduced axis. -/
theorem lift_last (h : S8x4096x1024.Reduces [2] S8x4096) (b : Fin 8) (n : Fin 4096) (k : Fin 1024) :
    h.lift (ix2 b n) k = ix3 b n k := by
  funext ax
  match ax with
  | ⟨0, _⟩ => rfl
  | ⟨1, _⟩ => rfl
  | ⟨2, _⟩ => rfl

/-- The reference's min-reduce is the specification's array of nearest-center distances. -/
theorem nearest_eq (x0 : (⟨S8x4096x256, .f32⟩ : BufTy).Contents (Elt Ideal)) (x1 : (⟨S8x1024x256, .f32⟩ : BufTy).Contents (Elt Ideal)) :
    val_main_v16 (F := Ideal) x0 x1 = Spec.nearest x0 x1 := by
  funext j
  obtain ⟨b, n, rfl⟩ : ∃ (b : Fin 8) (n : Fin 4096), j = ix2 b n := ⟨j 0, j 1, eq_ix2 j⟩
  rw [Spec.nearest_apply]
  unfold val_main_v16 Spec.nearestAt
  have hR : S8x4096x1024.Reduces [2] S8x4096 := by decide
  refine (Host.reduce_eq_fold_single (α := Ideal .f32) (FloatOps.minimumf (F := Ideal) (φ := .f32))
    (val_main_v15 (F := Ideal) x0 x1) (val_main_cst_3 (F := Ideal))
    reducesTo_S8x4096x1024_S8x4096_d2 hR h_S_ (ix2 b n)).trans ?_
  refine Finset.fold_congr fun k _ => ?_
  exact (congrArg (val_main_v15 (F := Ideal) x0 x1) (lift_last hR b n k)).trans (dist_apply x0 x1 b n k)

/-- So the reference's result is the mean of the specification's array. -/
theorem result_eq (x0 : (⟨S8x4096x256, .f32⟩ : BufTy).Contents (Elt Ideal)) (x1 : (⟨S8x1024x256, .f32⟩ : BufTy).Contents (Elt Ideal)) :
    val_main_v18 (F := Ideal) x0 x1 = Spec.meanOf reducesTo_S8x4096_S_d0_1 h_S_ (Spec.nearest x0 x1) := by
  rw [← nearest_eq x0 x1]
  rfl

end Cert.ReferenceIdeal.RefValue

end
-- ==== Proof.lean ====
/-
  Mean nearest-center distance: a tiled kernel against the whole-array computation.

  points P is [8, 4096, 256], centers C is [8, 1024, 256]. Both programs compute
      mean over (b, n) of  min over k of  √ max ( (Σ_d P(b,n,d)² + Σ_d C(b,k,d)²) − 2 · Σ_d P(b,n,d)·C(b,k,d),  0 ).
  The reference builds the whole [8, 4096, 1024] array of distances and reduces it with min along k from +∞. The kernel
  walks a grid of 8 point tiles by 4 center tiles; at each grid point it forms the [8, 512, 256] tile of distances with
  the same expression (the cross term a batched block product whose operands it first narrows, which changes nothing
  over the extended reals), reduces it along its 256 centers from +∞, and folds that into a running minimum kept in a
  scratch buffer: reset to +∞ on a point tile's first center tile, copied out to the [8, 4096] result on its last.
  The law that joins the two is that a minimum over 1024 members may be taken tile by tile, four tiles of 256, each
  tile's own minimum started again from +∞: min is associative, commutative and idempotent, so nothing is asked of the
  inputs and the precondition is never opened. Both programs then take the mean by the same two host operations.
-/
import proofs.«133824_j84232898609604_1_alg».proof.Defs
import proofs.«133824_j84232898609604_1_alg».proof.Proof.Gen.Kernel
import proofs.«133824_j84232898609604_1_alg».proof.Proof.Gen.Kernel.Frame
import proofs.«133824_j84232898609604_1_alg».proof.Proof.Gen.KernelIdeal
import proofs.«133824_j84232898609604_1_alg».proof.Proof.Gen.KernelIdeal.Frame
import proofs.«133824_j84232898609604_1_alg».proof.Proof.Gen.ReferenceIdeal
import proofs.«133824_j84232898609604_1_alg».proof.Proof.Gen.Pre_finite_inputs
import proofs.«133824_j84232898609604_1_alg».proof.Proof.Gen.ReferenceIdeal.Run
import proofs.«133824_j84232898609604_1_alg».proof.Proof.Gen.ReferenceIdeal.Read
import proofs.«133824_j84232898609604_1_alg».proof.Proof.KernelFinal
import proofs.«133824_j84232898609604_1_alg».proof.Proof.RefNearest
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- Both programs end with the mean of the array of nearest-center distances of arguments that agree. -/
theorem algebraic : Cert.algebraic_KernelIdeal_ReferenceIdeal := by
  intro m ρ m' ρ' _ hagree
  refine ⟨fun c => Cert.Spec.meanOf Cert.KernelIdeal.Gen.reducesTo_S8x4096_S_d0_1 Cert.KernelIdeal.Gen.h_S_
      (Cert.Spec.nearest (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
